-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x50 : Shape := ⟨2, ![8, 50]⟩
abbrev S4096x1024 : Shape := ⟨2, ![4096, 1024]⟩
abbrev S4096 : Shape := ⟨1, ![4096]⟩
abbrev S50x1024 : Shape := ⟨2, ![50, 1024]⟩
abbrev S50x4096 : Shape := ⟨2, ![50, 4096]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x50 : S_.BroadcastsInDim S8x50 (![] : Fin 0 → Fin S8x50.rank)
  reducesTo_S8x50_S_d0_1 : S8x50.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50x1024 : S_.BroadcastsInDim S50x1024 (![] : Fin 0 → Fin S50x1024.rank)
  reducesTo_S50x1024_S_d0_1 : S50x1024.ReducesTo [0, 1] S_
  bcast_S_S50x4096 : S_.BroadcastsInDim S50x4096 (![] : Fin 0 → Fin S50x4096.rank)
  reducesTo_S50x4096_S_d0_1 : S50x4096.ReducesTo [0, 1] S_

variable [Facts]

def fn_part1 {F : FTy → Type} [FloatOps F] (main_arg4 : FVec F S50x1024 .f32) (main_arg5 : FVec F S50x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S50x1024 .f32 := Host.absf main_arg4
  let main_cst_6 : FVec F S_ .f32 := constant S_ .f32 0x7F800000#32
  let main_v20 : FVec F S50x1024 .f32 := broadcastInDim S50x1024 ![] bcast_S_S50x1024 main_cst_6
  let main_v21 : IVec S50x1024 1 := cmpf .olt main_v19 main_v20
  let main_c_7 : IVec S_ 1 := constantI S_ 1 1#1
  let main_v22 : IVec S_ 1 := (fun x v => Host.reduce IntOp.andi x v reducesTo_S50x1024_S_d0_1 h_S_) main_v21 main_c_7
  let main_v23 : IVec S_ 1 := andi main_v18 main_v22
  let main_v24 : FVec F S50x4096 .f32 := Host.absf main_arg5
  let main_cst_8 : FVec F S_ .f32 := constant S_ .f32 0x7F800000#32
  let main_v25 : FVec F S50x4096 .f32 := broadcastInDim S50x4096 ![] bcast_S_S50x4096 main_cst_8
  let main_v26 : IVec S50x4096 1 := cmpf .olt main_v24 main_v25
  let main_c_9 : IVec S_ 1 := constantI S_ 1 1#1
  let main_v27 : IVec S_ 1 := (fun x v => Host.reduce IntOp.andi x v reducesTo_S50x4096_S_d0_1 h_S_) main_v26 main_c_9
  let main_v28 : IVec S_ 1 := andi main_v23 main_v27
  main_v28

def fn {F : FTy → Type} [FloatOps F] (main_arg0 : FVec F S8x1024x1024 .f32) (main_arg1 : FVec F S8x50 .f32) (main_arg2 : FVec F S4096x1024 .f32) (main_arg3 : FVec F S4096 .f32) (main_arg4 : FVec F S50x1024 .f32) (main_arg5 : FVec F S50x4096 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x50 .f32 := Host.absf main_arg1
  let main_cst_0 : FVec F S_ .f32 := constant S_ .f32 0x7F800000#32
  let main_v5 : FVec F S8x50 .f32 := broadcastInDim S8x50 ![] bcast_S_S8x50 main_cst_0
  let main_v6 : IVec S8x50 1 := cmpf .olt main_v4 main_v5
  let main_c_1 : IVec S_ 1 := constantI S_ 1 1#1
  let main_v7 : IVec S_ 1 := (fun x v => Host.reduce IntOp.andi x v reducesTo_S8x50_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x1024x1024 : Shape := ⟨3, ![8, 1024, 1024]⟩
abbrev S8x50 : Shape := ⟨2, ![8, 50]⟩
abbrev S4096x1024 : Shape := ⟨2, ![4096, 1024]⟩
abbrev S4096 : Shape := ⟨1, ![4096]⟩
abbrev S50x1024 : Shape := ⟨2, ![50, 1024]⟩
abbrev S50x4096 : Shape := ⟨2, ![50, 4096]⟩
abbrev S8x1024 : Shape := ⟨2, ![8, 1024]⟩
abbrev S8x4096 : Shape := ⟨2, ![8, 4096]⟩
abbrev S8x1x1024 : Shape := ⟨3, ![8, 1, 1024]⟩
abbrev S8x1x4096 : Shape := ⟨3, ![8, 1, 4096]⟩
abbrev S1x4096 : Shape := ⟨2, ![1, 4096]⟩
abbrev S8x1024x4096 : Shape := ⟨3, ![8, 1024, 4096]⟩
abbrev S1x1024x1024 : Shape := ⟨3, ![1, 1024, 1024]⟩
abbrev S512x1024 : Shape := ⟨2, ![512, 1024]⟩
abbrev S1x1x1024 : Shape := ⟨3, ![1, 1, 1024]⟩
abbrev S1x1x512 : Shape := ⟨3, ![1, 1, 512]⟩
abbrev S1x512 : Shape := ⟨2, ![1, 512]⟩
abbrev S1x1024x512 : Shape := ⟨3, ![1, 1024, 512]⟩
abbrev S1024x1024 : Shape := ⟨2, ![1024, 1024]⟩
abbrev S1024 : Shape := ⟨1, ![1024]⟩
abbrev S512 : Shape := ⟨1, ![512]⟩
abbrev S1x1024 : Shape := ⟨2, ![1, 1024]⟩
abbrev S1024x512 : Shape := ⟨2, ![1024, 512]⟩

abbrev nBuf : Space → Nat
  | .hbm => 12
  | .vmem => 12
  | .smem => 0
  | _ => 0

abbrev bufTy : (tb : Table) → Fin (tcTables nBuf tb) → BufTy
  | .hbm, ⟨0, _⟩ => ⟨S8x1024x1024, .f32⟩
  | .hbm, ⟨1, _⟩ => ⟨S8x50, .f32⟩
  | .hbm, ⟨2, _⟩ => ⟨S4096x1024, .f32⟩
  | .hbm, ⟨3, _⟩ => ⟨S4096, .f32⟩
  | .hbm, ⟨4, _⟩ => ⟨S50x1024, .f32⟩
  | .hbm, ⟨5, _⟩ => ⟨S50x4096, .f32⟩
  | .hbm, ⟨6, _⟩ => ⟨S8x1024, .f32⟩
  | .hbm, ⟨7, _⟩ => ⟨S8x4096, .f32⟩
  | .hbm, ⟨8, _⟩ => ⟨S8x1x1024, .f32⟩
  | .hbm, ⟨9, _⟩ => ⟨S8x1x4096, .f32⟩
  | .hbm, ⟨10, _⟩ => ⟨S1x4096, .f32⟩
  | .hbm, ⟨11, _⟩ => ⟨S8x1024x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x512, .f32⟩
  | .local _ .vmem, ⟨7, _⟩ => ⟨S1x1x512, .f32⟩
  | .local _ .vmem, ⟨8, _⟩ => ⟨S1x512, .f32⟩
  | .local _ .vmem, ⟨9, _⟩ => ⟨S1x512, .f32⟩
  | .local _ .vmem, ⟨10, _⟩ => ⟨S1x1024x512, .f32⟩
  | .local _ .vmem, ⟨11, _⟩ => ⟨S1x1024x512, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x1024_S8x1x1024 : S8x1024.ShapeCasts S8x1x1024
  shapeCasts_S8x4096_S8x1x4096 : S8x4096.ShapeCasts S8x1x4096
  shapeCasts_S4096_S1x4096 : S4096.ShapeCasts S1x4096
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S1024_S1x1024 : S1024.ShapeCasts S1x1024
  broadcasts_S1x1024_S1024x1024 : S1x1024.Broadcasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  shapeCasts_S512_S1x512 : S512.ShapeCasts S1x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S8x50_S50x1024_S8x1024_1_0_0_1_n_n_wf : DotDims.WF S8x50 S50x1024 S8x1024 [1] [0] [0] [1] [] []
  dot_S8x50_S50x4096_S8x4096_1_0_0_1_n_n_wf : DotDims.WF S8x50 S50x4096 S8x4096 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x1024x4096.size a
  hwx0_5 : ∀ i : grid0.Coords, EltTy.bits .f32 = 32 ∨ (Rect.block (s := S8x1024x4096) S1x1024x512.size (cc0_transform_5 i) (hinb0_5 i)).WholeWords (EltTy.packing .f32)

variable [Facts₀]

def dot_S8x50_S50x1024_S8x1024_1_0_0_1_n_n : DotDims S8x50 S50x1024 S8x1024 where
  lhsContracting := [1]
  rhsContracting := [0]
  lhsNonContracting := [0]
  rhsNonContracting := [1]
  lhsBatch := []
  rhsBatch := []
  wf := dot_S8x50_S50x1024_S8x1024_1_0_0_1_n_n_wf
def dot_S8x50_S50x4096_S8x4096_1_0_0_1_n_n : DotDims S8x50 S50x4096 S8x4096 where
  lhsContracting := [1]
  rhsContracting := [0]
  lhsNonContracting := [0]
  rhsNonContracting := [1]
  lhsBatch := []
  rhsBatch := []
  wf := dot_S8x50_S50x4096_S8x4096_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x50 : Shape := ⟨2, ![8, 50]⟩
abbrev S4096x1024 : Shape := ⟨2, ![4096, 1024]⟩
abbrev S4096 : Shape := ⟨1, ![4096]⟩
abbrev S50x1024 : Shape := ⟨2, ![50, 1024]⟩
abbrev S50x4096 : Shape := ⟨2, ![50, 4096]⟩
abbrev S8x1024 : Shape := ⟨2, ![8, 1024]⟩
abbrev S8x4096 : Shape := ⟨2, ![8, 4096]⟩
abbrev S8x1x1024 : Shape := ⟨3, ![8, 1, 1024]⟩
abbrev S8x1024x4096 : Shape := ⟨3, ![8, 1024, 4096]⟩
abbrev S8x1x4096 : Shape := ⟨3, ![8, 1, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x50, .f32⟩
  | .hbm, ⟨2, _⟩ => ⟨S4096x1024, .f32⟩
  | .hbm, ⟨3, _⟩ => ⟨S4096, .f32⟩
  | .hbm, ⟨4, _⟩ => ⟨S50x1024, .f32⟩
  | .hbm, ⟨5, _⟩ => ⟨S50x4096, .f32⟩
  | .hbm, ⟨6, _⟩ => ⟨S8x1024, .f32⟩
  | .hbm, ⟨7, _⟩ => ⟨S8x4096, .f32⟩
  | .hbm, ⟨8, _⟩ => ⟨S8x1x1024, .f32⟩
  | .hbm, ⟨9, _⟩ => ⟨S8x1024x1024, .f32⟩
  | .hbm, ⟨10, _⟩ => ⟨S8x1024x1024, .f32⟩
  | .hbm, ⟨11, _⟩ => ⟨S8x1024x4096, .f32⟩
  | .hbm, ⟨12, _⟩ => ⟨S8x1x4096, .f32⟩
  | .hbm, ⟨13, _⟩ => ⟨S8x1024x4096, .f32⟩
  | .hbm, ⟨14, _⟩ => ⟨S8x1024x4096, .f32⟩
  | .hbm, ⟨15, _⟩ => ⟨S1x1x4096, .f32⟩
  | .hbm, ⟨16, _⟩ => ⟨S8x1024x4096, .f32⟩
  | .hbm, ⟨17, _⟩ => ⟨S8x1024x4096, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  dot_S8x50_S50x1024_S8x1024_1_0_0_1_n_n_wf : DotDims.WF S8x50 S50x1024 S8x1024 [1] [0] [0] [1] [] []
  dot_S8x50_S50x4096_S8x4096_1_0_0_1_n_n_wf : DotDims.WF S8x50 S50x4096 S8x4096 [1] [0] [0] [1] [] []
  dot_S8x1024x1024_S4096x1024_S8x1024x4096_2_1_01_0_n_n_wf : DotDims.WF S8x1024x1024 S4096x1024 S8x1024x4096 [2] [1] [0, 1] [0] [] []

variable [Facts₀]

def dot_S8x50_S50x1024_S8x1024_1_0_0_1_n_n : DotDims S8x50 S50x1024 S8x1024 where
  lhsContracting := [1]
  rhsContracting := [0]
  lhsNonContracting := [0]
  rhsNonContracting := [1]
  lhsBatch := []
  rhsBatch := []
  wf := dot_S8x50_S50x1024_S8x1024_1_0_0_1_n_n_wf
def dot_S8x50_S50x4096_S8x4096_1_0_0_1_n_n : DotDims S8x50 S50x4096 S8x4096 where
  lhsContracting := [1]
  rhsContracting := [0]
  lhsNonContracting := [0]
  rhsNonContracting := [1]
  lhsBatch := []
  rhsBatch := []
  wf := dot_S8x50_S50x4096_S8x4096_1_0_0_1_n_n_wf
def dot_S8x1024x1024_S4096x1024_S8x1024x4096_2_1_01_0_n_n : DotDims S8x1024x1024 S4096x1024 S8x1024x4096 where
  lhsContracting := [2]
  rhsContracting := [1]
  lhsNonContracting := [0, 1]
  rhsNonContracting := [0]
  lhsBatch := []
  rhsBatch := []
  wf := dot_S8x1024x1024_S4096x1024_S8x1024x4096_2_1_01_0_n_n_wf

class Facts : Prop extends Facts₀ where

variable [Facts]
-- ==== Proof.Spec.lean ====
/-
  The function both programs compute, index by index over the extended reals.

  For a batch element `b` two scale vectors are mixed from the style tables, weighted by the batch element's cluster row:
      inScale  b k = Σ_j cluster[b, j] · style_L[j, k]        (one factor per input feature `k`),
      outScale b f = Σ_j cluster[b, j] · style_R[j, f]        (one factor per output feature `f`).
  The layer scales the input features, applies the shared weight matrix, scales the output features and adds the bias:
      layer[b, t, f] = (Σ_k (x[b, t, k] · inScale b k) · W[f, k]) · outScale b f + bias[f].
  Both programs compute exactly this arrangement (the kernel tile by tile over `b` and over blocks of 512 output
  features, the reference on whole arrays), so no law of the extended reals beyond reading each operation at an index is
  needed, and finiteness of the inputs is never used.
-/
import Idealize.ShloMosaic.PureOps.Ideal
import Idealize.ShloMosaic.Lib.ValueIdx

noncomputable section

open scoped BigOperators

namespace Cert.ModulatedLinear

open Idealize.ShloMosaic Idealize.ShloMosaic.ValueIdx

/-- The input-side scale of batch element `b` at input feature `k`: the cluster row times column `k` of `style_L`. -/
def inScale (cl : FVec Ideal ⟨2, ![8, 50]⟩ .f32) (sL : FVec Ideal ⟨2, ![50, 1024]⟩ .f32) (b : Fin 8) (k : Fin 1024) : EReal :=
  ∑ j : Fin 50, cl (ix2 b j) * sL (ix2 j k)

/-- The output-side scale of batch element `b` at output feature `f`: the cluster row times column `f` of `style_R`. -/
def outScale (cl : FVec Ideal ⟨2, ![8, 50]⟩ .f32) (sR : FVec Ideal ⟨2, ![50, 4096]⟩ .f32) (b : Fin 8) (f : Fin 4096) : EReal :=
  ∑ j : Fin 50, cl (ix2 b j) * sR (ix2 j f)

/-- One entry of the layer, by coordinates. -/
def layerAt (x : FVec Ideal ⟨3, ![8, 1024, 1024]⟩ .f32) (cl : FVec Ideal ⟨2, ![8, 50]⟩ .f32) (w : FVec Ideal ⟨2, ![4096, 1024]⟩ .f32)
    (bias : FVec Ideal ⟨1, ![4096]⟩ .f32) (sL : FVec Ideal ⟨2, ![50, 1024]⟩ .f32) (sR : FVec Ideal ⟨2, ![50, 4096]⟩ .f32)
    (b : Fin 8) (t : Fin 1024) (f : Fin 4096) : EReal :=
  (∑ k : Fin 1024, (x (ix3 b t k) * inScale cl sL b k) * w (ix2 f k)) * outScale cl sR b f + bias (ix1 f)

/-- The whole result array. -/
def layer (x : FVec Ideal ⟨3, ![8, 1024, 1024]⟩ .f32) (cl : FVec Ideal ⟨2, ![8, 50]⟩ .f32) (w : FVec Ideal ⟨2, ![4096, 1024]⟩ .f32)
    (bias : FVec Ideal ⟨1, ![4096]⟩ .f32) (sL : FVec Ideal ⟨2, ![50, 1024]⟩ .f32) (sR : FVec Ideal ⟨2, ![50, 4096]⟩ .f32) :
    FVec Ideal ⟨3, ![8, 1024, 4096]⟩ .f32 :=
  fun i => layerAt x cl w bias sL sR (i 0) (i 1) (i 2)

/-- The result array at an index given by coordinates. -/
theorem layer_apply (x : FVec Ideal ⟨3, ![8, 1024, 1024]⟩ .f32) (cl : FVec Ideal ⟨2, ![8, 50]⟩ .f32) (w : FVec Ideal ⟨2, ![4096, 1024]⟩ .f32)
    (bias : FVec Ideal ⟨1, ![4096]⟩ .f32) (sL : FVec Ideal ⟨2, ![50, 1024]⟩ .f32) (sR : FVec Ideal ⟨2, ![50, 4096]⟩ .f32)
    (b : Fin 8) (t : Fin 1024) (f : Fin 4096) :
    layer x cl w bias sL sR (ix3 b t f) = layerAt x cl w bias sL sR b t f := rfl

end Cert.ModulatedLinear

end
-- ==== Proof.Reference.lean ====
/-
  The reference's result, stage by stage, is the layer of `Spec.lean`.

  The reference forms the two scale tables by matrix products with the cluster rows, repeats the input-side table along
  the sequence axis and multiplies it into `x`, contracts the input features against the rows of the weight matrix,
  multiplies by the output-side table repeated along the sequence axis and adds the bias repeated over batch and sequence.
  Read at an index `(b, t, f)` each repetition picks the table entry of batch `b`, so the entry is
  `(Σ_k (x[b, t, k] · inScale b k) · W[f, k]) · outScale b f + bias[f]`.
-/
import proofs.«173488_j74191265071781_1_alg».proof.Proof.Gen.ReferenceIdeal.Read
import proofs.«173488_j74191265071781_1_alg».proof.Proof.Spec

noncomputable section

open scoped BigOperators

namespace Cert.ModulatedLinear.Reference

open Cert.ReferenceIdeal Cert.ReferenceIdeal.Read Idealize.ShloMosaic Idealize.ShloMosaic.ValueIdx

/-- The reference's last stage is the layer, as whole arrays. -/
theorem reference_eq_layer (x0 : FVec Ideal S8x1024x1024 .f32) (x1 : FVec Ideal S8x50 .f32) (x2 : FVec Ideal S4096x1024 .f32)
    (x3 : FVec Ideal S4096 .f32) (x4 : FVec Ideal S50x1024 .f32) (x5 : FVec Ideal S50x4096 .f32) :
    val_main_v11 (F := Ideal) x0 x1 x2 x3 x4 x5 = layer x0 x1 x2 x3 x4 x5 := by
  funext i
  obtain ⟨b, t, f, rfl⟩ : ∃ (b : Fin 8) (t : Fin 1024) (f : Fin 4096), i = ix3 b t f := ⟨i 0, i 1, i 2, eq_ix3 i⟩
  rw [layer_apply]
  rw [val_main_v11_apply, val_main_v8_apply, val_main_v5_apply, val_main_v7_apply, val_main_v6_apply, val_main_v1_apply,
    val_main_v10_apply, val_main_v9_apply]
  simp only [val_main_v4_apply, val_main_v3_apply, val_main_v2_apply, val_main_v0_apply]
  -- the contraction of the input features reads `x` at `(b, t, k)` and the weight at `(f, k)`
  have hx : ∀ k : Fin 1024, lidx_main_v5 (ix3 b t f) k = ix3 b t k := fun k => funext fun a =>
    match a with | ⟨0, _⟩ => rfl | ⟨1, _⟩ => rfl | ⟨2, _⟩ => rfl
  have hw : ∀ k : Fin 1024, ridx_main_v5 (ix3 b t f) k = ix2 f k := fun k => funext fun a =>
    match a with | ⟨0, _⟩ => rfl | ⟨1, _⟩ => rfl
  -- the repeated input-side table at `(b, t, k)` is its entry `(b, k)`: cluster at `(b, j)`, style_L at `(j, k)`
  have hcl : ∀ (k : Fin 1024) (j : Fin 50), lidx_main_v0 (idx_main_v2 (idx_main_v3 (ix3 b t k))) j = ix2 b j := fun k j => funext fun a =>
    match a with | ⟨0, _⟩ => rfl | ⟨1, _⟩ => rfl
  have hsl : ∀ (k : Fin 1024) (j : Fin 50), ridx_main_v0 (idx_main_v2 (idx_main_v3 (ix3 b t k))) j = ix2 j k := fun k j => funext fun a =>
    match a with | ⟨0, _⟩ => rfl | ⟨1, _⟩ => rfl
  -- the repeated output-side table at `(b, t, f)` is its entry `(b, f)`
  have hcr : ∀ j : Fin 50, lidx_main_v1 (idx_main_v6 (idx_main_v7 (ix3 b t f))) j = ix2 b j := fun j => funext fun a =>
    match a with | ⟨0, _⟩ => rfl | ⟨1, _⟩ => rfl
  have hsr : ∀ j : Fin 50, ridx_main_v1 (idx_main_v6 (idx_main_v7 (ix3 b t f))) j = ix2 j f := fun j => funext fun a =>
    match a with | ⟨0, _⟩ => rfl | ⟨1, _⟩ => rfl
  -- the repeated bias at `(b, t, f)` is its entry `f`
  have hb : idx_main_v9 (idx_main_v10 (ix3 b t f)) = ix1 f := funext fun a =>
    match a with | ⟨0, _⟩ => rfl
  simp only [hx, hw, hcl, hsl, hcr, hsr, hb]
  rfl

end Cert.ModulatedLinear.Reference

end
-- ==== Proof.Tile.lean ====
/-
  The kernel body's stored tile, read at one entry.

  At a grid point the body holds one batch element's `x` block `[1, 1024, 1024]`, a block of 512 rows of the weight matrix
  `[512, 1024]`, the batch element's input-side scale row `[1, 1, 1024]`, 512 entries of its output-side scale row
  `[1, 1, 512]` and 512 entries of the bias `[1, 512]`. It scales the columns of `x` by the input-side row, multiplies by
  the transposed weight block (a matrix product into a zero accumulator, so a plain sum over the 1024 input features),
  scales the columns of the product by the output-side entries and adds the bias entries. The format changes to the
  16-bit float are the identity on extended reals. So the stored tile at `(0, t, j)` is
      (Σ_k (x[0, t, k] · l[0, 0, k]) · w[j, k]) · r[0, 0, j] + bias[0, j].
-/
import proofs.«173488_j74191265071781_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ModulatedLinear.Tile

open Cert.KernelIdeal Idealize.ShloMosaic Idealize.ShloMosaic.ValueIdx

/-! ## A row held as a `[1, 1, n]` block, spread over the rows of a matrix -/

/-- A `[1, 1, n]` array cast to `[n]` reads, at `i`, the operand at `(0, 0, i)`. -/
theorem shapeCast_11a_a_apply {α : Type} {n : ℕ} (x : (⟨3, ![1, 1, n]⟩ : Shape).Idx → α)
    (h : (⟨3, ![1, 1, n]⟩ : Shape).ShapeCasts ⟨1, ![n]⟩) (i : Fin n) :
    shapeCast ⟨1, ![n]⟩ x h (ix1 i) = x (ix3 (0 : Fin 1) (0 : Fin 1) i) :=
  shapeCast_apply x h _ _ (by
    rw [Shape.rowMajor_val_three, Shape.rowMajor_val_one]
    show (0 * 1 + 0) * n + i.val = i.val
    simp only [Nat.zero_mul, Nat.zero_add])

/-- The row of a `[1, 1, n]` block, made a `[1, n]` matrix and repeated over `r` rows, reads at `(p, q)` the block's entry `q`. -/
theorem spreadRow3_apply {α : Type} {r n : ℕ} (v : (⟨3, ![1, 1, n]⟩ : Shape).Idx → α)
    (h1 : (⟨3, ![1, 1, n]⟩ : Shape).ShapeCasts ⟨1, ![n]⟩) (h2 : (⟨1, ![n]⟩ : Shape).ShapeCasts ⟨2, ![1, n]⟩)
    (h3 : (⟨2, ![1, n]⟩ : Shape).Broadcasts ⟨2, ![r, n]⟩) (p : Fin r) (q : Fin n) :
    broadcastTo ⟨2, ![r, n]⟩ (shapeCast ⟨2, ![1, n]⟩ (shapeCast ⟨1, ![n]⟩ v h1) h2) h3 (ix2 p q) = v (ix3 (0 : Fin 1) (0 : Fin 1) q) := by
  rw [broadcastTo_1b_ab_apply, shapeCast_a_1a_apply, shapeCast_11a_a_apply]

/-- The row of a `[1, n]` block, flattened, made a `[1, n]` matrix again and repeated over `r` rows, reads at `(p, q)` the
    block's entry `q`. -/
theorem spreadRow2_apply {α : Type} {r n : ℕ} (v : (⟨2, ![1, n]⟩ : Shape).Idx → α)
    (h1 : (⟨2, ![1, n]⟩ : Shape).ShapeCasts ⟨1, ![n]⟩) (h2 : (⟨1, ![n]⟩ : Shape).ShapeCasts ⟨2, ![1, n]⟩)
    (h3 : (⟨2, ![1, n]⟩ : Shape).Broadcasts ⟨2, ![r, n]⟩) (p : Fin r) (q : Fin n) :
    broadcastTo ⟨2, ![r, n]⟩ (shapeCast ⟨2, ![1, n]⟩ (shapeCast ⟨1, ![n]⟩ v h1) h2) h3 (ix2 p q) = v (ix2 (0 : Fin 1) q) := by
  rw [broadcastTo_1b_ab_apply, shapeCast_a_1a_apply, shapeCast_1a_a_apply]

/-! ## The tile's matrix product as a sum over the input features -/

theorem lhs_tile_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_tile_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_tile_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_tile_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The tile's product `[1024, 1024] × [1024, 512]` into the zero accumulator, at `(t, j)`: the sum over the contracted
    feature `k` of the left operand at `(t, k)` times the right at `(k, j)`. -/
theorem tileProduct_apply (l : FVec Ideal S1024x1024 .bf16) (r : FVec Ideal S1024x512 .bf16) (t : Fin 1024) (j : Fin 512) :
    matmul dot_S1024x1024_S1024x512_S1024x512_1_0_0_1_n_n none l r (constant (F := Ideal) S1024x512 .f32 0x00000000#32) (ix2 t j)
      = ∑ k : Fin 1024, l (ix2 t k) * r (ix2 k j) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 t j) ((contrEquiv1 dot_S1024x1024_S1024x512_S1024x512_1_0_0_1_n_n 1024 rfl rfl).symm k) = ix2 t k := funext fun a => Fin.ext (by
    match a with
    | ⟨0, _⟩ => exact lhs_tile_0 _ _
    | ⟨1, _⟩ => exact (lhs_tile_1 _ _).trans hk)
  have er : dot_S1024x1024_S1024x512_S1024x512_1_0_0_1_n_n.rhsIdx (ix2 t j) ((contrEquiv1 dot_S1024x1024_S1024x512_S1024x512_1_0_0_1_n_n 1024 rfl rfl).symm k) = ix2 k j := funext fun a => Fin.ext (by
    match a with
    | ⟨0, _⟩ => exact (rhs_tile_0 _ _).trans hk
    | ⟨1, _⟩ => exact rhs_tile_1 _ _)
  rw [el, er]

/-! ## The stored tile at an entry -/

/-- The value the body stores, at `(u, t, j)` of the `[1, 1024, 512]` tile, from the five loaded blocks. -/
theorem tile_apply (v0 : Vec Ideal S1x1024x1024 .f32) (v2 : Vec Ideal S1x1x1024 .f32) (v4 : Vec Ideal S1x1x512 .f32)
    (v6 : Vec Ideal S1x512 .f32) (v12 : Vec Ideal S512x1024 .f32) (u : Fin 1) (t : Fin 1024) (j : Fin 512) :
    Gen.k0_pay1 (F := Ideal) v0 v2 v4 v6 v12 (ix3 u t j)
      = (∑ k : Fin 1024, (v0 (ix3 (0 : Fin 1) t k) * v2 (ix3 (0 : Fin 1) (0 : Fin 1) k)) * v12 (ix2 j k))
          * v4 (ix3 (0 : Fin 1) (0 : Fin 1) j) + v6 (ix2 (0 : Fin 1) j) := by
  unfold Gen.k0_pay1
  dsimp only
  rw [shapeCast_ab_1ab_apply, addf_apply, mulf_apply, tileProduct_apply, spreadRow3_apply, spreadRow2_apply]
  refine congrArg (· * v4 (ix3 (0 : Fin 1) (0 : Fin 1) j) + v6 (ix2 (0 : Fin 1) j)) (Finset.sum_congr rfl fun k _ => ?_)
  rw [truncf_apply, mulf_apply, shapeCast_1ab_ab_apply, spreadRow3_apply, transpose_ix2_apply, truncf_apply]

end Cert.ModulatedLinear.Tile

end
-- ==== Proof.Scales.lean ====
/-
  What the kernel's region finds in the three arrays the host prepared for it.

  Before the region the host forms the two scale tables as matrix products of the cluster rows with the style tables and
  gives each a middle axis of extent one, and gives the bias a leading axis of extent one. A reshape keeps the row-major
  position, so at `(b, 0, k)` the input-side array holds `inScale b k`, at `(b, 0, f)` the output-side array holds
  `outScale b f`, and at `(0, f)` the bias array holds `bias[f]`.
-/
import proofs.«173488_j74191265071781_1_alg».proof.Proof.Gen.KernelIdeal.Frame
import proofs.«173488_j74191265071781_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.ModulatedLinear.Entry

open Cert.KernelIdeal Cert.KernelIdeal.Gen Idealize.ShloMosaic Idealize.ShloMosaic.TcCoe Idealize.ShloMosaic.ValueIdx Idealize.SL.Sem

/-! ## The host's two matrix products as sums over the 50 clusters -/

theorem lhs_inScale_0 (i : S8x1024.Idx) (q : dot_S8x50_S50x1024_S8x1024_1_0_0_1_n_n.contr.Idx) :
    (dot_S8x50_S50x1024_S8x1024_1_0_0_1_n_n.lhsIdx i q 0).val = (i 0).val := by
  unfold DotDims.lhsIdx
  rw [dif_neg (show ¬(0 : Fin S8x50.rank) ∈ dot_S8x50_S50x1024_S8x1024_1_0_0_1_n_n.lhsBatch by decide), dif_pos (show (0 : Fin S8x50.rank) ∈ dot_S8x50_S50x1024_S8x1024_1_0_0_1_n_n.lhsNonContracting by decide)]
  rfl
theorem lhs_inScale_1 (i : S8x1024.Idx) (q : dot_S8x50_S50x1024_S8x1024_1_0_0_1_n_n.contr.Idx) :
    (dot_S8x50_S50x1024_S8x1024_1_0_0_1_n_n.lhsIdx i q 1).val = (q ⟨0, by decide⟩).val :=
  dot_S8x50_S50x1024_S8x1024_1_0_0_1_n_n.lhsIdx_val_of_single rfl i q
theorem rhs_inScale_0 (i : S8x1024.Idx) (q : dot_S8x50_S50x1024_S8x1024_1_0_0_1_n_n.contr.Idx) :
    (dot_S8x50_S50x1024_S8x1024_1_0_0_1_n_n.rhsIdx i q 0).val = (q ⟨0, by decide⟩).val :=
  dot_S8x50_S50x1024_S8x1024_1_0_0_1_n_n.rhsIdx_val_of_single rfl i q
theorem rhs_inScale_1 (i : S8x1024.Idx) (q : dot_S8x50_S50x1024_S8x1024_1_0_0_1_n_n.contr.Idx) :
    (dot_S8x50_S50x1024_S8x1024_1_0_0_1_n_n.rhsIdx i q 1).val = (i 1).val := by
  unfold DotDims.rhsIdx
  rw [dif_neg (show ¬(1 : Fin S50x1024.rank) ∈ dot_S8x50_S50x1024_S8x1024_1_0_0_1_n_n.rhsBatch by decide), dif_pos (show (1 : Fin S50x1024.rank) ∈ dot_S8x50_S50x1024_S8x1024_1_0_0_1_n_n.rhsNonContracting by decide)]
  rfl

theorem lhs_outScale_0 (i : S8x4096.Idx) (q : dot_S8x50_S50x4096_S8x4096_1_0_0_1_n_n.contr.Idx) :
    (dot_S8x50_S50x4096_S8x4096_1_0_0_1_n_n.lhsIdx i q 0).val = (i 0).val := by
  unfold DotDims.lhsIdx
  rw [dif_neg (show ¬(0 : Fin S8x50.rank) ∈ dot_S8x50_S50x4096_S8x4096_1_0_0_1_n_n.lhsBatch by decide), dif_pos (show (0 : Fin S8x50.rank) ∈ dot_S8x50_S50x4096_S8x4096_1_0_0_1_n_n.lhsNonContracting by decide)]
  rfl
theorem lhs_outScale_1 (i : S8x4096.Idx) (q : dot_S8x50_S50x4096_S8x4096_1_0_0_1_n_n.contr.Idx) :
    (dot_S8x50_S50x4096_S8x4096_1_0_0_1_n_n.lhsIdx i q 1).val = (q ⟨0, by decide⟩).val :=
  dot_S8x50_S50x4096_S8x4096_1_0_0_1_n_n.lhsIdx_val_of_single rfl i q
theorem rhs_outScale_0 (i : S8x4096.Idx) (q : dot_S8x50_S50x4096_S8x4096_1_0_0_1_n_n.contr.Idx) :
    (dot_S8x50_S50x4096_S8x4096_1_0_0_1_n_n.rhsIdx i q 0).val = (q ⟨0, by decide⟩).val :=
  dot_S8x50_S50x4096_S8x4096_1_0_0_1_n_n.rhsIdx_val_of_single rfl i q
theorem rhs_outScale_1 (i : S8x4096.Idx) (q : dot_S8x50_S50x4096_S8x4096_1_0_0_1_n_n.contr.Idx) :
    (dot_S8x50_S50x4096_S8x4096_1_0_0_1_n_n.rhsIdx i q 1).val = (i 1).val := by
  unfold DotDims.rhsIdx
  rw [dif_neg (show ¬(1 : Fin S50x4096.rank) ∈ dot_S8x50_S50x4096_S8x4096_1_0_0_1_n_n.rhsBatch by decide), dif_pos (show (1 : Fin S50x4096.rank) ∈ dot_S8x50_S50x4096_S8x4096_1_0_0_1_n_n.rhsNonContracting by decide)]
  rfl

/-- The cluster rows times `style_L`, at `(b, k)`, is the input-side scale. -/
theorem mixL_apply (cl : FVec Ideal S8x50 .f32) (sL : FVec Ideal S50x1024 .f32) (b : Fin 8) (q : Fin 1024) :
    Host.dotGeneral dot_S8x50_S50x1024_S8x1024_1_0_0_1_n_n none cl sL (ix2 b q) = inScale cl sL b q := by
  unfold inScale
  simp only [Host.dotGeneral]
  rw [Ideal.dotGeneral_apply, ← Equiv.sum_comp (contrEquiv1 dot_S8x50_S50x1024_S8x1024_1_0_0_1_n_n 50 rfl rfl).symm]
  refine Finset.sum_congr rfl fun j _ => ?_
  have hj := contrEquiv1_symm_val dot_S8x50_S50x1024_S8x1024_1_0_0_1_n_n 50 rfl rfl j
  have el : dot_S8x50_S50x1024_S8x1024_1_0_0_1_n_n.lhsIdx (ix2 b q) ((contrEquiv1 dot_S8x50_S50x1024_S8x1024_1_0_0_1_n_n 50 rfl rfl).symm j) = ix2 b j := funext fun a => Fin.ext (by
    match a with
    | ⟨0, _⟩ => exact lhs_inScale_0 _ _
    | ⟨1, _⟩ => exact (lhs_inScale_1 _ _).trans hj)
  have er : dot_S8x50_S50x1024_S8x1024_1_0_0_1_n_n.rhsIdx (ix2 b q) ((contrEquiv1 dot_S8x50_S50x1024_S8x1024_1_0_0_1_n_n 50 rfl rfl).symm j) = ix2 j q := funext fun a => Fin.ext (by
    match a with
    | ⟨0, _⟩ => exact (rhs_inScale_0 _ _).trans hj
    | ⟨1, _⟩ => exact rhs_inScale_1 _ _)
  rw [el, er]

/-- The cluster rows times `style_R`, at `(b, f)`, is the output-side scale. -/
theorem mixR_apply (cl : FVec Ideal S8x50 .f32) (sR : FVec Ideal S50x4096 .f32) (b : Fin 8) (q : Fin 4096) :
    Host.dotGeneral dot_S8x50_S50x4096_S8x4096_1_0_0_1_n_n none cl sR (ix2 b q) = outScale cl sR b q := by
  unfold outScale
  simp only [Host.dotGeneral]
  rw [Ideal.dotGeneral_apply, ← Equiv.sum_comp (contrEquiv1 dot_S8x50_S50x4096_S8x4096_1_0_0_1_n_n 50 rfl rfl).symm]
  refine Finset.sum_congr rfl fun j _ => ?_
  have hj := contrEquiv1_symm_val dot_S8x50_S50x4096_S8x4096_1_0_0_1_n_n 50 rfl rfl j
  have el : dot_S8x50_S50x4096_S8x4096_1_0_0_1_n_n.lhsIdx (ix2 b q) ((contrEquiv1 dot_S8x50_S50x4096_S8x4096_1_0_0_1_n_n 50 rfl rfl).symm j) = ix2 b j := funext fun a => Fin.ext (by
    match a with
    | ⟨0, _⟩ => exact lhs_outScale_0 _ _
    | ⟨1, _⟩ => exact (lhs_outScale_1 _ _).trans hj)
  have er : dot_S8x50_S50x4096_S8x4096_1_0_0_1_n_n.rhsIdx (ix2 b q) ((contrEquiv1 dot_S8x50_S50x4096_S8x4096_1_0_0_1_n_n 50 rfl rfl).symm j) = ix2 j q := funext fun a => Fin.ext (by
    match a with
    | ⟨0, _⟩ => exact (rhs_outScale_0 _ _).trans hj
    | ⟨1, _⟩ => exact rhs_outScale_1 _ _)
  rw [el, er]

/-! ## The arrays at region entry -/

variable (m : (ℓ : Loc nD τ sig) → Buf (Elt Ideal) ℓ)

/-- The input-side array at `(b, u, k)` (the middle axis has one entry) is `inScale b k` of the launch contents. -/
theorem entry_inScale (c : Dev nD) (b : Fin 8) (u : Fin 1) (k : Fin 1024) :
    (V m c main_v2 : FVec Ideal S8x1x1024 .f32) (ix3 b u k)
      = inScale (m ((c : Thread nD τ).loc main_arg1)) (m ((c : Thread nD τ).loc main_arg4)) b k := by
  have e : (V m c main_v2 : FVec Ideal S8x1x1024 .f32)
      = shapeCast S8x1x1024 (Host.dotGeneral (F := Ideal) (φ₁ := .f32) (φ₂ := .f32) dot_S8x50_S50x1024_S8x1024_1_0_0_1_n_n none (m ((c : Thread nD τ).loc main_arg1) : FVec Ideal S8x50 .f32) (m ((c : Thread nD τ).loc main_arg4) : FVec Ideal S50x1024 .f32)) shapeCasts_S8x1024_S8x1x1024 := by
    dsimp only [V, hostOps0]; after_results; rfl
  rw [e, shapeCast_apply _ _ (ix3 b u k) (ix2 b k) (by
    rw [Shape.rowMajor_val_two, Shape.rowMajor_val_three]
    show b.val * 1024 + k.val = (b.val * 1 + u.val) * 1024 + k.val
    have := u.isLt; omega), mixL_apply]

/-- The output-side array at `(b, u, f)` is `outScale b f` of the launch contents. -/
theorem entry_outScale (c : Dev nD) (b : Fin 8) (u : Fin 1) (f : Fin 4096) :
    (V m c main_v3 : FVec Ideal S8x1x4096 .f32) (ix3 b u f)
      = outScale (m ((c : Thread nD τ).loc main_arg1)) (m ((c : Thread nD τ).loc main_arg5)) b f := by
  have e : (V m c main_v3 : FVec Ideal S8x1x4096 .f32)
      = shapeCast S8x1x4096 (Host.dotGeneral (F := Ideal) (φ₁ := .f32) (φ₂ := .f32) dot_S8x50_S50x4096_S8x4096_1_0_0_1_n_n none (m ((c : Thread nD τ).loc main_arg1) : FVec Ideal S8x50 .f32) (m ((c : Thread nD τ).loc main_arg5) : FVec Ideal S50x4096 .f32)) shapeCasts_S8x4096_S8x1x4096 := by
    dsimp only [V, hostOps0]; after_results; rfl
  rw [e, shapeCast_apply _ _ (ix3 b u f) (ix2 b f) (by
    rw [Shape.rowMajor_val_two, Shape.rowMajor_val_three]
    show b.val * 4096 + f.val = (b.val * 1 + u.val) * 4096 + f.val
    have := u.isLt; omega), mixR_apply]

/-- The bias array at `(u, f)` is the bias argument at `f`. -/
theorem entry_bias (c : Dev nD) (u : Fin 1) (f : Fin 4096) :
    (V m c main_v4 : FVec Ideal S1x4096 .f32) (ix2 u f) = m ((c : Thread nD τ).loc main_arg3) (ix1 f) := by
  have e : (V m c main_v4 : FVec Ideal S1x4096 .f32)
      = shapeCast S1x4096 (m ((c : Thread nD τ).loc main_arg3)) shapeCasts_S4096_S1x4096 := by
    dsimp only [V, hostOps0]; after_results; rfl
  rw [e, shapeCast_a_1a_apply]

end Cert.ModulatedLinear.Entry

end
-- ==== Proof.Array.lean ====
/-
  From the tiles to the whole result array, and the kernel's run.

  The grid has 8 × 8 points `(b, n)`. Point `(b, n)` holds batch element `b` of `x`, rows `512 n … 512 n + 511` of the
  weight matrix, the scale rows of batch element `b` (of the output-side row only the entries of that block of output
  features) and the same block of the bias, and writes back the tile `[b, 0 … 1023, 512 n … 512 n + 511]` of the result.
  Each operand block read at an entry is the operand array at the entry shifted by the block's origin, so the tile of
  `Tile.lean` at `(0, p, q)` is the layer at `(b, p, 512 n + q)`: every point writes back its block of ONE whole-array
  function. The 64 tiles cover the result array (the tile holding `(b, p, f)` is that of the point `(b, f / 512)`), so the
  array ends holding the layer of the launch contents.
-/
import proofs.«173488_j74191265071781_1_alg».proof.Proof.Gen.KernelIdeal.Value
import proofs.«173488_j74191265071781_1_alg».proof.Proof.Spec
import proofs.«173488_j74191265071781_1_alg».proof.Proof.Tile
import proofs.«173488_j74191265071781_1_alg».proof.Proof.Scales

noncomputable section

open scoped BigOperators

namespace Cert.ModulatedLinear.Array

open Cert.KernelIdeal Cert.KernelIdeal.Gen Idealize.ShloMosaic Idealize.ShloMosaic.TcCoe Idealize.ShloMosaic.ValueIdx Idealize.SL.Sem
open Idealize.ShloMosaic.Pipeline (Dat)
open Cert.ModulatedLinear.Tile Cert.ModulatedLinear.Entry

variable (m : (ℓ : Loc nD τ sig) → Buf (Elt Ideal) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl

/-- The layer of core `c`'s launch contents. -/
abbrev result (c : Dev nD) : FVec Ideal S8x1024x4096 .f32 :=
  layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The block indices over the grid, decided: `x` and both scale rows follow the output tile's batch index, the weight
    block, the output-side scale block and the bias block follow its feature-block index, every other block index is zero. -/
theorem block_indices : ∀ t : Fin cfg0.N,
    win0_0.index t (0 : Fin 3) = win0_5.index t (0 : Fin 3) ∧ win0_0.index t (1 : Fin 3) = 0 ∧ win0_0.index t (2 : Fin 3) = 0
    ∧ win0_1.index t (0 : Fin 2) = win0_5.index t (2 : Fin 3) ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = win0_5.index t (2 : Fin 3)
    ∧ win0_4.index t (0 : Fin 2) = 0 ∧ win0_4.index t (1 : Fin 2) = win0_5.index t (2 : Fin 3)
    ∧ win0_5.index t (0 : Fin 3) < 8 ∧ win0_5.index t (1 : Fin 3) = 0 ∧ win0_5.index t (2 : Fin 3) < 8 :=
  (by decide +kernel : ∀ t : Fin grid0.N, _)

/-- Every pair (batch element, block of output features) is some point's output tile. -/
theorem block_onto : ∀ (q0 : Fin 8) (q2 : Fin 8), ∃ t : Fin cfg0.N, win0_5.index t = ![q0.val, 0, q2.val] :=
  (by decide +kernel : ∀ (q0 : Fin 8) (q2 : Fin 8), ∃ t : Fin grid0.N, win0_5.index t = ![q0.val, 0, q2.val])

/-! ## Each operand block at an entry -/

/-- The `x` block at `(0, p, k)` is `x[b, p, k]` for the tile's batch element `b`. -/
theorem xblk_apply (c : Dev nD) (t : Fin cfg0.N) (p k : Fin 1024) (b : Fin 8) (hb : win0_5.index t (0 : Fin 3) = b.val) :
    (iblk m c 0 t : Vec Ideal S1x1024x1024 .f32) (ix3 (0 : Fin 1) p k) = (m ((c : Thread nD τ).loc main_arg0)) (ix3 b p k) := by
  obtain ⟨e0, e1, e2, -⟩ := block_indices t
  show V m c main_arg0 (((cfg0.win 0).blk t).view.emb (ix3 (0 : Fin 1) p k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * p.val = p.val; omega
  | ⟨2, _⟩ => show win0_0.index t (2 : Fin 3) * 1024 + 1 * k.val = k.val; omega

/-- The weight block at `(q, k)` is `W[f, k]` for the tile's output feature `f = 512 n + q`. -/
theorem wblk_apply (c : Dev nD) (t : Fin cfg0.N) (q : Fin 512) (k : Fin 1024) (f : Fin 4096)
    (hf : win0_5.index t (2 : Fin 3) * 512 + q.val = f.val) :
    (iblk m c 1 t : Vec Ideal S512x1024 .f32) (ix2 q k) = (m ((c : Thread nD τ).loc main_arg2)) (ix2 f k) := by
  obtain ⟨-, -, -, e0, e1, -⟩ := block_indices t
  show V m c main_arg2 (((cfg0.win 1).blk t).view.emb (ix2 q k)) = _
  rw [V_main_arg2]
  refine congrArg _ (funext fun a => Fin.ext ?_)
  match a with
  | ⟨0, _⟩ => show win0_1.index t (0 : Fin 2) * 512 + 1 * q.val = f.val; omega
  | ⟨1, _⟩ => show win0_1.index t (1 : Fin 2) * 1024 + 1 * k.val = k.val; omega

/-- The input-side scale block at `(0, 0, k)` is `inScale b k`. -/
theorem lblk_apply (c : Dev nD) (t : Fin cfg0.N) (k : Fin 1024) (b : Fin 8) (hb : win0_5.index t (0 : Fin 3) = b.val) :
    (iblk m c 2 t : Vec Ideal S1x1x1024 .f32) (ix3 (0 : Fin 1) (0 : Fin 1) k) = inScale (m ((c : Thread nD τ).loc main_arg1)) (m ((c : Thread nD τ).loc main_arg4)) b k := by
  obtain ⟨-, -, -, -, -, e0, e1, e2, -⟩ := block_indices t
  rw [← entry_inScale m c b (0 : Fin 1) k]
  show V m c main_v2 (((cfg0.win 2).blk t).view.emb (ix3 (0 : Fin 1) (0 : Fin 1) k)) = _
  refine congrArg _ (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 1024 + 1 * k.val = k.val; omega

/-- The output-side scale block at `(0, 0, q)` is `outScale b f` for `f = 512 n + q`. -/
theorem rblk_apply (c : Dev nD) (t : Fin cfg0.N) (q : Fin 512) (b : Fin 8) (f : Fin 4096) (hb : win0_5.index t (0 : Fin 3) = b.val)
    (hf : win0_5.index t (2 : Fin 3) * 512 + q.val = f.val) :
    (iblk m c 3 t : Vec Ideal S1x1x512 .f32) (ix3 (0 : Fin 1) (0 : Fin 1) q) = outScale (m ((c : Thread nD τ).loc main_arg1)) (m ((c : Thread nD τ).loc main_arg5)) b f := by
  obtain ⟨-, -, -, -, -, -, -, -, e0, e1, e2, -⟩ := block_indices t
  rw [← entry_outScale m c b (0 : Fin 1) f]
  show V m c main_v3 (((cfg0.win 3).blk t).view.emb (ix3 (0 : Fin 1) (0 : Fin 1) q)) = _
  refine congrArg _ (funext fun a => Fin.ext ?_)
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 512 + 1 * q.val = f.val; omega

/-- The bias block at `(0, q)` is `bias[f]` for `f = 512 n + q`. -/
theorem bblk_apply (c : Dev nD) (t : Fin cfg0.N) (q : Fin 512) (f : Fin 4096) (hf : win0_5.index t (2 : Fin 3) * 512 + q.val = f.val) :
    (iblk m c 4 t : Vec Ideal S1x512 .f32) (ix2 (0 : Fin 1) q) = (m ((c : Thread nD τ).loc main_arg3)) (ix1 f) := by
  obtain ⟨-, -, -, -, -, -, -, -, -, -, -, e0, e1, -⟩ := block_indices t
  rw [← entry_bias m c (0 : Fin 1) f]
  show V m c main_v4 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = f.val; omega

/-! ## What a point writes back is its block of the layer -/

theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin3]
  simp only [View.ld_unit_zero (S := S1x1024x1024) origin3, View.ld_unit_zero (S := S1x1x1024) origin3,
    View.ld_unit_zero (S := S1x1x512) origin3, View.ld_unit_zero (S := S1x512) origin2, View.ld_unit_zero (S := S512x1024) origin2]
  obtain ⟨-, -, -, -, -, -, -, -, -, -, -, -, -, hb, h1, hn⟩ := block_indices t
  refine funext fun (y : S1x1024x512.Idx) => ?_
  obtain ⟨u, p, q, rfl⟩ : ∃ (u : Fin 1) (p : Fin 1024) (q : Fin 512), y = ix3 u p q := ⟨y 0, y 1, y 2, eq_ix3 y⟩
  -- the tile's batch element and the entry's output feature
  let b : Fin 8 := ⟨win0_5.index t (0 : Fin 3), hb⟩
  let f : Fin 4096 := ⟨win0_5.index t (2 : Fin 3) * 512 + q.val, by have := q.isLt; omega⟩
  have hemb : ((cfg0.win 5).blk t).view.emb (ix3 u p q) = ix3 b p f := funext fun a => Fin.ext (by
    match a with
    | ⟨0, _⟩ => show win0_5.index t (0 : Fin 3) * 1 + 1 * u.val = win0_5.index t (0 : Fin 3); have := u.isLt; omega
    | ⟨1, _⟩ => show win0_5.index t (1 : Fin 3) * 1024 + 1 * p.val = p.val; omega
    | ⟨2, _⟩ => show win0_5.index t (2 : Fin 3) * 512 + 1 * q.val = win0_5.index t (2 : Fin 3) * 512 + q.val; omega)
  show k0_pay1 (F := Ideal) (iblk m c 0 t) (iblk m c 2 t) (iblk m c 3 t) (iblk m c 4 t) (iblk m c 1 t) (ix3 u p q)
    = result m c (((cfg0.win 5).blk t).view.emb (ix3 u p q))
  rw [hemb]
  unfold result
  rw [layer_apply]
  unfold layerAt
  refine (tile_apply (iblk m c 0 t) (iblk m c 2 t) (iblk m c 3 t) (iblk m c 4 t) (iblk m c 1 t) u p q).trans ?_
  rw [rblk_apply m c t q b f rfl rfl, bblk_apply m c t q f rfl]
  refine congrArg (· * outScale (m ((c : Thread nD τ).loc main_arg1)) (m ((c : Thread nD τ).loc main_arg5)) b f + (m ((c : Thread nD τ).loc main_arg3)) (ix1 f)) (Finset.sum_congr rfl fun k _ => ?_)
  rw [xblk_apply m c t p k b rfl, lblk_apply m c t k b rfl, wblk_apply m c t q k f rfl]

/-! ## The tiles cover the array -/

/-- An index is in point `t`'s tile iff each coordinate is in the tile's range on its axis. -/
theorem mem_tile (t : Fin cfg0.N) (i : S8x1024x4096.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v5).slice (win0_5.rect t)).set ↔ _
  rw [View.set_slice_whole, Rect.mem_set_unit]
  exact Iff.rfl

/-- Every index of the result is in the tile of the point (its batch element, its output feature's block of 512). -/
theorem tiles_cover (i : S8x1024x4096.Idx) : ∃ t : Fin cfg0.N, (cfg0.win 5).flush t = true ∧ i ∈ ((cfg0.win 5).blk t).view.set := by
  have h0 : (i 0).val < 8 := (i 0).isLt
  have h1 : (i 1).val < 1024 := (i 1).isLt
  have h2 : (i 2).val < 4096 := (i 2).isLt
  obtain ⟨t, ht⟩ := block_onto ⟨(i 0).val, h0⟩ ⟨(i 2).val / 512, by omega⟩
  have q0 : win0_5.index t (0 : Fin 3) = (i 0).val := congrFun ht 0
  have q1 : win0_5.index t (1 : Fin 3) = 0 := congrFun ht 1
  have q2 : win0_5.index t (2 : Fin 3) = (i 2).val / 512 := congrFun ht 2
  refine ⟨t, flush0_5 t, ?_⟩
  rw [mem_tile]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- The result array after the run is the layer of the launch contents. -/
theorem final (c : Dev nD) : (dats m 0 c).arrAt 5 cfg0.N = result m c :=
  (dats m 0 c).arrAt_eq_of_cover 5 (result m c) (fun t _ => flushed_eq m c t) tiles_cover

/-! ## The kernel's run -/

/-- Every weakly fair execution of the idealized kernel terminates with the result array at the layer of the launch
    contents and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.ModulatedLinear.Array

end
-- ==== Proof.lean ====
/-
  A linear layer whose input and output features are scaled per batch element, tile by tile, against the same layer on
  whole arrays: `Cert.Claim`.

  Both programs compute, over the extended reals,
      out[b, t, f] = (Σ_k (x[b, t, k] · inScale b k) · W[f, k]) · outScale b f + bias[f],
  where `inScale b k = Σ_j cluster[b, j] · style_L[j, k]` and `outScale b f = Σ_j cluster[b, j] · style_R[j, f]`
  (Proof/Spec.lean). The kernel does it on an 8 × 8 grid, one batch element and one block of 512 output features per
  point, after the host has formed the two scale tables; its matrix product accumulates into zero and its roundings to
  the 16-bit format are the identity on extended reals, so each stored tile entry is the formula above
  (Proof/Tile.lean), each operand block is the operand array shifted by the block's origin (Proof/Scales.lean for the
  arrays the host prepared, Proof/Array.lean for the blocks), and the 64 tiles cover the result (Proof/Array.lean).
  The reference computes the same formula stage by stage on whole arrays (Proof/Reference.lean). The two sides are the
  same arrangement of sums and products, so no distributive or cancelling step is taken and the finiteness of the
  inputs is not used. The three frames are the generated runs; the idealization rewrote nothing, so `preserves` is `True`.
-/
import proofs.«173488_j74191265071781_1_alg».proof.Defs
import proofs.«173488_j74191265071781_1_alg».proof.Proof.Gen.Kernel
import proofs.«173488_j74191265071781_1_alg».proof.Proof.Gen.Kernel.Skeleton
import proofs.«173488_j74191265071781_1_alg».proof.Proof.Gen.Kernel.Launch
import proofs.«173488_j74191265071781_1_alg».proof.Proof.Gen.Kernel.Points
import proofs.«173488_j74191265071781_1_alg».proof.Proof.Gen.Kernel.Frame
import proofs.«173488_j74191265071781_1_alg».proof.Proof.Gen.KernelIdeal
import proofs.«173488_j74191265071781_1_alg».proof.Proof.Gen.KernelIdeal.Skeleton
import proofs.«173488_j74191265071781_1_alg».proof.Proof.Gen.KernelIdeal.Launch
import proofs.«173488_j74191265071781_1_alg».proof.Proof.Gen.KernelIdeal.Points
import proofs.«173488_j74191265071781_1_alg».proof.Proof.Gen.KernelIdeal.Frame
import proofs.«173488_j74191265071781_1_alg».proof.Proof.Gen.ReferenceIdeal
import proofs.«173488_j74191265071781_1_alg».proof.Proof.Gen.Pre_finite_inputs
import proofs.«173488_j74191265071781_1_alg».proof.Proof.Gen.KernelIdeal.Value
import proofs.«173488_j74191265071781_1_alg».proof.Proof.Gen.ReferenceIdeal.Run
import proofs.«173488_j74191265071781_1_alg».proof.Proof.Gen.ReferenceIdeal.Read
import proofs.«173488_j74191265071781_1_alg».proof.Proof.Spec
import proofs.«173488_j74191265071781_1_alg».proof.Proof.Reference
import proofs.«173488_j74191265071781_1_alg».proof.Proof.Array
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only; its generated run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both idealized programs end with the result array at the layer of
    the kernel's launch contents: the kernel by its tiles, the reference by its stages read at an index. -/
theorem algebraic : Cert.algebraic_KernelIdeal_ReferenceIdeal := by
  intro m ρ m' ρ' _ hagree
  refine ⟨fun c => Cert.ModulatedLinear.Array.result m c, Cert.ModulatedLinear.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v11_eq _ _ _ _ _ _).trans ((Cert.ModulatedLinear.Reference.reference_eq_layer _ _ _ _ _ _).trans ?_)
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
